-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v22)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v22) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v27) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192 : Shape := ⟨1, ![8192]⟩
abbrev S8192x2 : Shape := ⟨2, ![8192, 2]⟩
abbrev S_ : Shape := ⟨0, ![]⟩

class Facts : Prop where
  bcast_S_S8192 : S_.BroadcastsInDim S8192 (![] : Fin 0 → Fin S8192.rank)
  reducesTo_S8192_S_d0 : S8192.ReducesTo [0] S_
  h_S_ : 0 < S_.numel
  bcast_S_S8192x2 : S_.BroadcastsInDim S8192x2 (![] : Fin 0 → Fin S8192x2.rank)
  reducesTo_S8192x2_S_d0_1 : S8192x2.ReducesTo [0, 1] S_

variable [Facts]

def fn {F : FTy → Type} [FloatOps F] (main_arg0 : FVec F S8192 .f32) (main_arg1 : FVec F S8192x2 .f32) : IVec S_ 1 :=
  let main_v0 : FVec F S8192 .f32 := Host.absf main_arg0
  let main_cst : FVec F S_ .f32 := constant S_ .f32 0x7F800000#32
  let main_v1 : FVec F S8192 .f32 := broadcastInDim S8192 ![] bcast_S_S8192 main_cst
  let main_v2 : IVec S8192 1 := cmpf .olt main_v0 main_v1
  let main_c : IVec S_ 1 := constantI S_ 1 1#1
  let main_v3 : IVec S_ 1 := (fun x v => Host.reduce IntOp.andi x v reducesTo_S8192_S_d0 h_S_) main_v2 main_c
  let main_v4 : FVec F S8192x2 .f32 := Host.absf main_arg1
  let main_cst_0 : FVec F S_ .f32 := constant S_ .f32 0x7F800000#32
  let main_v5 : FVec F S8192x2 .f32 := broadcastInDim S8192x2 ![] bcast_S_S8192x2 main_cst_0
  let main_v6 : IVec S8192x2 1 := cmpf .olt main_v4 main_v5
  let main_c_1 : IVec S_ 1 := constantI S_ 1 1#1
  let main_v7 : IVec S_ 1 := (fun x v => Host.reduce IntOp.andi x v reducesTo_S8192x2_S_d0_1 h_S_) main_v6 main_c_1
  let main_v8 : IVec S_ 1 := andi main_v3 main_v7
  main_v8
-- ==== Kernel.lean ====
abbrev S8192 : Shape := ⟨1, ![8192]⟩
abbrev S8192x2 : Shape := ⟨2, ![8192, 2]⟩
abbrev S8192x1 : Shape := ⟨2, ![8192, 1]⟩
abbrev S_ : Shape := ⟨0, ![]⟩
abbrev S1x8192 : Shape := ⟨2, ![1, 8192]⟩
abbrev S1x1 : Shape := ⟨2, ![1, 1]⟩
abbrev S1024x1 : Shape := ⟨2, ![1024, 1]⟩
abbrev S1x1024 : Shape := ⟨2, ![1, 1024]⟩
abbrev S1024x1024 : Shape := ⟨2, ![1024, 1024]⟩
abbrev S1024 : Shape := ⟨1, ![1024]⟩

abbrev nBuf : Space → Nat
  | .hbm => 30
  | .vmem => 10
  | .smem => 0
  | _ => 0

abbrev bufTy : (tb : Table) → Fin (tcTables nBuf tb) → BufTy
  | .hbm, ⟨0, _⟩ => ⟨S8192, .f32⟩
  | .hbm, ⟨1, _⟩ => ⟨S8192x2, .f32⟩
  | .hbm, ⟨2, _⟩ => ⟨S8192x1, .f32⟩
  | .hbm, ⟨3, _⟩ => ⟨S8192, .f32⟩
  | .hbm, ⟨4, _⟩ => ⟨S8192x1, .f32⟩
  | .hbm, ⟨5, _⟩ => ⟨S8192, .f32⟩
  | .hbm, ⟨6, _⟩ => ⟨S_, .f32⟩
  | .hbm, ⟨7, _⟩ => ⟨S_, .f32⟩
  | .hbm, ⟨8, _⟩ => ⟨S8192x1, .f32⟩
  | .hbm, ⟨9, _⟩ => ⟨S8192x1, .f32⟩
  | .hbm, ⟨10, _⟩ => ⟨S1x8192, .f32⟩
  | .hbm, ⟨11, _⟩ => ⟨S1x1, .f32⟩
  | .hbm, ⟨12, _⟩ => ⟨S1x8192, .f32⟩
  | .hbm, ⟨13, _⟩ => ⟨S8192, .f32⟩
  | .hbm, ⟨14, _⟩ => ⟨S_, .f32⟩
  | .hbm, ⟨15, _⟩ => ⟨S8192, .f32⟩
  | .hbm, ⟨16, _⟩ => ⟨S8192, .f32⟩
  | .hbm, ⟨17, _⟩ => ⟨S8192, .f32⟩
  | .hbm, ⟨18, _⟩ => ⟨S8192, .f32⟩
  | .hbm, ⟨19, _⟩ => ⟨S8192, .f32⟩
  | .hbm, ⟨20, _⟩ => ⟨S8192, .f32⟩
  | .hbm, ⟨21, _⟩ => ⟨S8192, .f32⟩
  | .hbm, ⟨22, _⟩ => ⟨S_, .f32⟩
  | .hbm, ⟨23, _⟩ => ⟨S_, .f32⟩
  | .hbm, ⟨24, _⟩ => ⟨S_, .f32⟩
  | .hbm, ⟨25, _⟩ => ⟨S_, .f32⟩
  | .hbm, ⟨26, _⟩ => ⟨S_, .f32⟩
  | .hbm, ⟨27, _⟩ => ⟨S_, .f32⟩
  | .hbm, ⟨28, _⟩ => ⟨S_, .f32⟩
  | .hbm, ⟨29, _⟩ => ⟨S_, .f32⟩
  | .local _ .vmem, ⟨0, _⟩ => ⟨S1024x1, .f32⟩
  | .local _ .vmem, ⟨1, _⟩ => ⟨S1024x1, .f32⟩
  | .local _ .vmem, ⟨2, _⟩ => ⟨S1024x1, .f32⟩
  | .local _ .vmem, ⟨3, _⟩ => ⟨S1024x1, .f32⟩
  | .local _ .vmem, ⟨4, _⟩ => ⟨S1x1024, .f32⟩
  | .local _ .vmem, ⟨5, _⟩ => ⟨S1x1024, .f32⟩
  | .local _ .vmem, ⟨6, _⟩ => ⟨S1x1, .f32⟩
  | .local _ .vmem, ⟨7, _⟩ => ⟨S1x1024, .f32⟩
  | .local _ .vmem, ⟨8, _⟩ => ⟨S1x1024, .f32⟩
  | .local _ .vmem, ⟨9, _⟩ => ⟨S1x1024, .f32⟩
  | _, _ => ⟨S8192, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_cst : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_cst_0 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_cst_1 : Ref sig .tc := ⟨.hbm, 22, rfl⟩
abbrev main_v18 : Ref sig .tc := ⟨.hbm, 23, rfl⟩
abbrev main_v19 : Ref sig .tc := ⟨.hbm, 24, rfl⟩
abbrev main_cst_2 : Ref sig .tc := ⟨.hbm, 25, rfl⟩
abbrev main_v20 : Ref sig .tc := ⟨.hbm, 26, rfl⟩
abbrev main_v21 : Ref sig .tc := ⟨.hbm, 27, rfl⟩
abbrev main_cst_3 : Ref sig .tc := ⟨.hbm, 28, rfl⟩
abbrev main_v22 : Ref sig .tc := ⟨.hbm, 29, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_scratch0 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨2, ![8, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S1024x1 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1024x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 1 → Memref sig .tc .vmem S1x1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S1x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

class Facts₀ : Prop where
  slices_S8192x2_S8192x1_0_0 : S8192x2.Slices ![0, 0] S8192x1
  shapeCasts_S8192x1_S8192 : S8192x1.ShapeCasts S8192
  slices_S8192x2_S8192x1_0_1 : S8192x2.Slices ![0, 1] S8192x1
  reducesTo_S8192_S_d0 : S8192.ReducesTo [0] S_
  h_S_ : 0 < S_.numel
  shapeCasts_S8192_S8192x1 : S8192.ShapeCasts S8192x1
  shapeCasts_S8192_S1x8192 : S8192.ShapeCasts S1x8192
  shapeCasts_S_S1x1 : S_.ShapeCasts S1x1
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  inb_S1x1_S1x1_0_0 : ∀ a, (![0, 0] : Fin 2 → Nat) a + S1x1.size a ≤ S1x1.size a
  h_S1x1 : 0 < S1x1.numel
  shapeCasts_S1x1_S1x1 : S1x1.ShapeCasts S1x1
  inb_S1024x1_S1024x1_0_0 : ∀ a, (![0, 0] : Fin 2 → Nat) a + S1024x1.size a ≤ S1024x1.size a
  h_S1024x1 : 0 < S1024x1.numel
  shapeCasts_S1024x1_S1024x1 : S1024x1.ShapeCasts S1024x1
  broadcasts_S1x1_S1024x1 : S1x1.Broadcasts S1024x1
  broadcasts_S1x1024_S1024x1024 : S1x1024.Broadcasts S1024x1024
  broadcasts_S1024x1_S1024x1024 : S1024x1.Broadcasts S1024x1024
  reduces_S1024x1024_S1024 : S1024x1024.Reduces [0] S1024
  shapeCasts_S1024_S1x1024 : S1024.ShapeCasts S1x1024
  shapeCasts_S1x8192_S8192 : S1x8192.ShapeCasts S8192
  bcast_S_S8192 : S_.BroadcastsInDim S8192 (![] : Fin 0 → Fin S8192.rank)
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x1.size a ≤ S8192x1.size a
  hwx0_0 : ∀ i : grid0.Coords, EltTy.bits .f32 = 32 ∨ (Rect.block (s := S8192x1) S1024x1.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x1.size a ≤ S8192x1.size a
  hwx0_1 : ∀ i : grid0.Coords, EltTy.bits .f32 = 32 ∨ (Rect.block (s := S8192x1) S1024x1.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1024.size a ≤ S1x8192.size a
  hwx0_2 : ∀ i : grid0.Coords, EltTy.bits .f32 = 32 ∨ (Rect.block (s := S1x8192) S1x1024.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x1.size a ≤ S1x1.size a
  hwx0_3 : ∀ i : grid0.Coords, EltTy.bits .f32 = 32 ∨ (Rect.block (s := S1x1) S1x1.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x1024.size a ≤ S1x8192.size a
  hwx0_4 : ∀ i : grid0.Coords, EltTy.bits .f32 = 32 ∨ (Rect.block (s := S1x8192) S1x1024.size (cc0_transform_4 i) (hinb0_4 i)).WholeWords (EltTy.packing .f32)

variable [Facts₀]

abbrev win0_0 : Pipeline.Window sig grid0 :=
  Pipeline.Window.ofSpec (Memref.whole main_v5) S1024x1.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v6) S1024x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v7) S1x1024.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v8) S1x1.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v9) S1x1024.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S8192 : Shape := ⟨1, ![8192]⟩
abbrev S8192x2 : Shape := ⟨2, ![8192, 2]⟩
abbrev S8192x1 : Shape := ⟨2, ![8192, 1]⟩
abbrev S1x8192 : Shape := ⟨2, ![1, 8192]⟩
abbrev S8192x8192 : Shape := ⟨2, ![8192, 8192]⟩
abbrev S_ : Shape := ⟨0, ![]⟩

abbrev nBuf : Space → Nat
  | .hbm => 39
  | .vmem => 0
  | .smem => 0
  | _ => 0

abbrev bufTy : (tb : Table) → Fin (tcTables nBuf tb) → BufTy
  | .hbm, ⟨0, _⟩ => ⟨S8192, .f32⟩
  | .hbm, ⟨1, _⟩ => ⟨S8192x2, .f32⟩
  | .hbm, ⟨2, _⟩ => ⟨S8192x1, .f32⟩
  | .hbm, ⟨3, _⟩ => ⟨S8192, .f32⟩
  | .hbm, ⟨4, _⟩ => ⟨S8192x1, .f32⟩
  | .hbm, ⟨5, _⟩ => ⟨S8192, .f32⟩
  | .hbm, ⟨6, _⟩ => ⟨S1x8192, .f32⟩
  | .hbm, ⟨7, _⟩ => ⟨S8192x1, .f32⟩
  | .hbm, ⟨8, _⟩ => ⟨S8192x8192, .f32⟩
  | .hbm, ⟨9, _⟩ => ⟨S8192x8192, .f32⟩
  | .hbm, ⟨10, _⟩ => ⟨S8192x8192, .i1⟩
  | .hbm, ⟨11, _⟩ => ⟨S_, .f32⟩
  | .hbm, ⟨12, _⟩ => ⟨S_, .f32⟩
  | .hbm, ⟨13, _⟩ => ⟨S8192, .f32⟩
  | .hbm, ⟨14, _⟩ => ⟨S8192, .f32⟩
  | .hbm, ⟨15, _⟩ => ⟨S8192, .f32⟩
  | .hbm, ⟨16, _⟩ => ⟨S8192x1, .f32⟩
  | .hbm, ⟨17, _⟩ => ⟨S_, .f32⟩
  | .hbm, ⟨18, _⟩ => ⟨S8192x8192, .f32⟩
  | .hbm, ⟨19, _⟩ => ⟨S8192x8192, .f32⟩
  | .hbm, ⟨20, _⟩ => ⟨S8192x8192, .f32⟩
  | .hbm, ⟨21, _⟩ => ⟨S_, .f32⟩
  | .hbm, ⟨22, _⟩ => ⟨S8192, .f32⟩
  | .hbm, ⟨23, _⟩ => ⟨S_, .f32⟩
  | .hbm, ⟨24, _⟩ => ⟨S8192, .f32⟩
  | .hbm, ⟨25, _⟩ => ⟨S8192, .f32⟩
  | .hbm, ⟨26, _⟩ => ⟨S8192, .f32⟩
  | .hbm, ⟨27, _⟩ => ⟨S8192, .f32⟩
  | .hbm, ⟨28, _⟩ => ⟨S8192, .f32⟩
  | .hbm, ⟨29, _⟩ => ⟨S8192, .f32⟩
  | .hbm, ⟨30, _⟩ => ⟨S8192, .f32⟩
  | .hbm, ⟨31, _⟩ => ⟨S_, .f32⟩
  | .hbm, ⟨32, _⟩ => ⟨S_, .f32⟩
  | .hbm, ⟨33, _⟩ => ⟨S_, .f32⟩
  | .hbm, ⟨34, _⟩ => ⟨S_, .f32⟩
  | .hbm, ⟨35, _⟩ => ⟨S_, .f32⟩
  | .hbm, ⟨36, _⟩ => ⟨S_, .f32⟩
  | .hbm, ⟨37, _⟩ => ⟨S_, .f32⟩
  | .hbm, ⟨38, _⟩ => ⟨S_, .f32⟩
  | _, _ => ⟨S8192, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_cst : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_cst_0 : Ref sig .tc := ⟨.hbm, 17, rfl⟩
abbrev main_call0_v0 : Ref sig .tc := ⟨.hbm, 18, rfl⟩
abbrev main_call0_v1 : Ref sig .tc := ⟨.hbm, 19, rfl⟩
abbrev main_v14 : Ref sig .tc := ⟨.hbm, 20, rfl⟩
abbrev main_cst_1 : Ref sig .tc := ⟨.hbm, 21, rfl⟩
abbrev main_v15 : Ref sig .tc := ⟨.hbm, 22, rfl⟩
abbrev main_cst_2 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_cst_3 : Ref sig .tc := ⟨.hbm, 31, rfl⟩
abbrev main_v23 : Ref sig .tc := ⟨.hbm, 32, rfl⟩
abbrev main_v24 : Ref sig .tc := ⟨.hbm, 33, rfl⟩
abbrev main_cst_4 : Ref sig .tc := ⟨.hbm, 34, rfl⟩
abbrev main_v25 : Ref sig .tc := ⟨.hbm, 35, rfl⟩
abbrev main_v26 : Ref sig .tc := ⟨.hbm, 36, rfl⟩
abbrev main_cst_5 : Ref sig .tc := ⟨.hbm, 37, rfl⟩
abbrev main_v27 : Ref sig .tc := ⟨.hbm, 38, rfl⟩

abbrev nD : Nat := 1
abbrev τ : Topo := Topo.v7x

variable {F : FTy → Type} [FloatOps F]

class Facts₀ : Prop where
  slices_S8192x2_S8192x1_0_0 : S8192x2.Slices ![0, 0] S8192x1
  shapeCasts_S8192x1_S8192 : S8192x1.ShapeCasts S8192
  slices_S8192x2_S8192x1_0_1 : S8192x2.Slices ![0, 1] S8192x1
  bcast_S8192_S1x8192_1 : S8192.BroadcastsInDim S1x8192 (![1] : Fin 1 → Fin S1x8192.rank)
  bcast_S8192_S8192x1_0 : S8192.BroadcastsInDim S8192x1 (![0] : Fin 1 → Fin S8192x1.rank)
  bcast_S1x8192_S8192x8192_0_1 : S1x8192.BroadcastsInDim S8192x8192 (![0, 1] : Fin 2 → Fin S8192x8192.rank)
  bcast_S8192x1_S8192x8192_0_1 : S8192x1.BroadcastsInDim S8192x8192 (![0, 1] : Fin 2 → Fin S8192x8192.rank)
  reducesTo_S8192_S_d0 : S8192.ReducesTo [0] S_
  h_S_ : 0 < S_.numel
  bcast_S_S8192 : S_.BroadcastsInDim S8192 (![] : Fin 0 → Fin S8192.rank)
  bcast_S_S8192x8192 : S_.BroadcastsInDim S8192x8192 (![] : Fin 0 → Fin S8192x8192.rank)
  reducesTo_S8192x8192_S8192_d0 : S8192x8192.ReducesTo [0] S8192

variable [Facts₀]

class Facts : Prop extends Facts₀ where

variable [Facts]
-- ==== Proof.KPieces.lean ====
/-
  What one grid point leaves behind, as values.

  The body keeps a `[1, 1024]` accumulator in a scratch buffer. At the first tile of a column block it stores zeros
  there; at every tile it reads the accumulator, adds the tile's column sums, stores the result back over the whole
  accumulator, reads it once more and stores that into the output block. So after a point both the accumulator and the
  output block hold ONE value: the tile's update applied to what the accumulator held before (zeros, at a first
  tile). Each store covers its whole buffer, so a buffer's contents after the point is its last store's payload, and a
  load after a covering store reads that store's payload.
-/
import proofs.«142729_j64639257805423_1_alg».proof.Proof.Gen.KernelIdeal.Frame
import Idealize.ShloMosaic.Lib.Pipeline.Value
import Idealize.ShloMosaic.Lib.Tactic

noncomputable section

namespace Cert.KernelIdeal.Risk

open Idealize.ShloMosaic Idealize.ShloMosaic.TcCoe Idealize.SL.Sem Cert.KernelIdeal Cert.KernelIdeal.Gen

variable {F : FTy → Type} [FloatOps F]

theorem hz : (![0, 0] : Fin 2 → Nat) = fun _ => 0 := funext fun a => by fin_cases a <;> rfl

/-- A later tile leaves in the accumulator the update of what it held (`xs0`) by the point's blocks. -/
theorem sout_B (c : Dev nD) (i : grid0.Coords) (a2 : Memref sig .tc .vmem S1024x1 .f32) (h2 : a2.IsWhole) (a3 : Memref sig .tc .vmem S1024x1 .f32) (h3 : a3.IsWhole) (a4 : Memref sig .tc .vmem S1x1024 .f32) (h4 : a4.IsWhole) (a5 : Memref sig .tc .vmem S1x1 .f32) (h5 : a5.IsWhole) (a6 : Memref sig .tc .vmem S1x1024 .f32) (h6 : a6.IsWhole) (a7 : Memref sig .tc .vmem S1x1024 .f32) (h7 : a7.IsWhole) (hc : ¬cond0_0 i) (x0 : Vec F S1024x1 .f32) (x1 : Vec F S1024x1 .f32) (x2 : Vec F S1x1024 .f32) (x3 : Vec F S1x1 .f32) (xs0 : Vec F S1x1024 .f32) :
    sout0_B_0 c i a2 h2 a3 h3 a4 h4 a5 h5 a6 h6 a7 h7 hc x0 x1 x2 x3 xs0 = k0_pay2 x3 x0 x1 x2 xs0 := by
  unfold sout0_B_0
  rw [View.read_writes_eq_canon _ _ _ (scover0_B_0 c i a2 h2 a3 h3 a4 h4 a5 h5 a6 h6 a7 h7 hc x0 x1 x2 x3 xs0)]
  unfold kernelRun0_B
  dsimp only
  sl_unfold_words
  rw [View.canon_unit_zero hz]
  simp only [View.readAt_eq_ld, h2.read_unread, h3.read_unread, h4.read_unread, h5.read_unread, h7.read_unread,
    View.ld_unit_zero (S := S1024x1) hz, View.ld_unit_zero (S := S1x1024) hz, View.ld_unit_zero (S := S1x1) hz]

/-- and the output block holds the same value: the accumulator read back after its store. -/
theorem out_B (c : Dev nD) (i : grid0.Coords) (a2 : Memref sig .tc .vmem S1024x1 .f32) (h2 : a2.IsWhole) (a3 : Memref sig .tc .vmem S1024x1 .f32) (h3 : a3.IsWhole) (a4 : Memref sig .tc .vmem S1x1024 .f32) (h4 : a4.IsWhole) (a5 : Memref sig .tc .vmem S1x1 .f32) (h5 : a5.IsWhole) (a6 : Memref sig .tc .vmem S1x1024 .f32) (h6 : a6.IsWhole) (a7 : Memref sig .tc .vmem S1x1024 .f32) (h7 : a7.IsWhole) (hc : ¬cond0_0 i) (x0 : Vec F S1024x1 .f32) (x1 : Vec F S1024x1 .f32) (x2 : Vec F S1x1024 .f32) (x3 : Vec F S1x1 .f32) (xs0 : Vec F S1x1024 .f32) :
    out0_B_4 c i a2 h2 a3 h3 a4 h4 a5 h5 a6 h6 a7 h7 hc x0 x1 x2 x3 xs0 = k0_pay2 x3 x0 x1 x2 xs0 := by
  unfold out0_B_4
  rw [View.read_writes_eq_canon _ _ _ (cover0_B_4 c i a2 h2 a3 h3 a4 h4 a5 h5 a6 h6 a7 h7 hc x0 x1 x2 x3 xs0)]
  unfold kernelRun0_B
  dsimp only
  sl_unfold_words
  rw [View.canon_unit_zero (S := S1x1024) hz, View.readCov_cons_toLoadRect]
  simp only [View.readAt_eq_ld, h2.read_unread, h3.read_unread, h4.read_unread, h5.read_unread, h7.read_unread,
    View.ld_unit_zero (S := S1024x1) hz, View.ld_unit_zero (S := S1x1024) hz, View.ld_unit_zero (S := S1x1) hz]

/-- A first tile leaves in the accumulator the update of the zeros it has just stored there. -/
theorem sout_A (c : Dev nD) (i : grid0.Coords) (a2 : Memref sig .tc .vmem S1024x1 .f32) (h2 : a2.IsWhole) (a3 : Memref sig .tc .vmem S1024x1 .f32) (h3 : a3.IsWhole) (a4 : Memref sig .tc .vmem S1x1024 .f32) (h4 : a4.IsWhole) (a5 : Memref sig .tc .vmem S1x1 .f32) (h5 : a5.IsWhole) (a6 : Memref sig .tc .vmem S1x1024 .f32) (h6 : a6.IsWhole) (a7 : Memref sig .tc .vmem S1x1024 .f32) (h7 : a7.IsWhole) (hc : cond0_0 i) (x0 : Vec F S1024x1 .f32) (x1 : Vec F S1024x1 .f32) (x2 : Vec F S1x1024 .f32) (x3 : Vec F S1x1 .f32) :
    sout0_A_0 c i a2 h2 a3 h3 a4 h4 a5 h5 a6 h6 a7 h7 hc x0 x1 x2 x3 = k0_pay2 x3 x0 x1 x2 (k0_pay1 (F := F)) := by
  unfold sout0_A_0
  rw [View.read_writes_eq_canon _ _ _ (scover0_A_0 c i a2 h2 a3 h3 a4 h4 a5 h5 a6 h6 a7 h7 hc x0 x1 x2 x3)]
  unfold kernelRun0_A
  dsimp only
  sl_unfold_words
  rw [View.canon_cons_unit_zero (S := S1x1024) hz, View.readCov_cons_toLoadRect]
  simp only [View.readAt_eq_ld, h2.read_unread, h3.read_unread, h4.read_unread, h5.read_unread, h7.read_unread,
    View.ld_unit_zero (S := S1024x1) hz, View.ld_unit_zero (S := S1x1024) hz, View.ld_unit_zero (S := S1x1) hz]

/-- and the output block holds the same value. -/
theorem out_A (c : Dev nD) (i : grid0.Coords) (a2 : Memref sig .tc .vmem S1024x1 .f32) (h2 : a2.IsWhole) (a3 : Memref sig .tc .vmem S1024x1 .f32) (h3 : a3.IsWhole) (a4 : Memref sig .tc .vmem S1x1024 .f32) (h4 : a4.IsWhole) (a5 : Memref sig .tc .vmem S1x1 .f32) (h5 : a5.IsWhole) (a6 : Memref sig .tc .vmem S1x1024 .f32) (h6 : a6.IsWhole) (a7 : Memref sig .tc .vmem S1x1024 .f32) (h7 : a7.IsWhole) (hc : cond0_0 i) (x0 : Vec F S1024x1 .f32) (x1 : Vec F S1024x1 .f32) (x2 : Vec F S1x1024 .f32) (x3 : Vec F S1x1 .f32) :
    out0_A_4 c i a2 h2 a3 h3 a4 h4 a5 h5 a6 h6 a7 h7 hc x0 x1 x2 x3 = k0_pay2 x3 x0 x1 x2 (k0_pay1 (F := F)) := by
  unfold out0_A_4
  rw [View.read_writes_eq_canon _ _ _ (cover0_A_4 c i a2 h2 a3 h3 a4 h4 a5 h5 a6 h6 a7 h7 hc x0 x1 x2 x3)]
  unfold kernelRun0_A
  dsimp only
  sl_unfold_words
  rw [View.canon_unit_zero (S := S1x1024) hz, View.readCov_cons_toLoadRect, View.readCov_cons_toLoadRect]
  simp only [View.readAt_eq_ld, h2.read_unread, h3.read_unread, h4.read_unread, h5.read_unread, h7.read_unread,
    View.ld_unit_zero (S := S1024x1) hz, View.ld_unit_zero (S := S1x1024) hz, View.ld_unit_zero (S := S1x1) hz]

end Cert.KernelIdeal.Risk

end
-- ==== Proof.RiskSpec.lean ====
/-
  The risk-set sum of the Cox partial likelihood, as mathematics over the extended reals.

  For samples with event times `t` and risk scores `r`, and a shift `M`, sample `p` adds `exp (r p - M)` to the
  risk-set sum of sample `q` exactly when `t q ≤ t p`, and zero otherwise. The 8192 samples are cut into 8 tiles
  of 1024: sample `a` of tile `I` is sample `1024 · I + a`, and a sum over all samples is the sum, over the
  tiles, of the sums inside each tile. That is a re-indexing of a finite sum in a commutative monoid, which the
  extended reals are under addition, so nothing here asks the summands to be finite.

  Also here: the three layout readings the tile's arithmetic needs at an index (a point broadcast down a column, a
  column broadcast across the rows' lanes, the sum over the rows of a square tile).
-/
import Idealize.ShloMosaic.PureOps.Ideal
import Idealize.ShloMosaic.PureOps.Ideal.Laws
import Idealize.ShloMosaic.Lib.ValueIdx
import Idealize.ShloMosaic.Lib.ValueLayout
import Idealize.ShloMosaic.Lib.Pipeline.Value

noncomputable section

namespace RiskSet

open Idealize.ShloMosaic Idealize.ShloMosaic.ValueIdx

/-! ## Tiles of the sample axis -/

/-- Sample `a` of tile `I`: position `1024 · I + a` (taken mod 8192, so that it is a sample for every `I`;
    for the eight tiles `I < 8` the remainder changes nothing, `pidx_val`). -/
def pidx (I : ℕ) (a : Fin 1024) : Fin 8192 := ⟨(1024 * I + a.val) % 8192, Nat.mod_lt _ (by decide)⟩

theorem pidx_val {I : ℕ} (hI : I < 8) (a : Fin 1024) : (pidx I a).val = 1024 * I + a.val := by
  have := a.isLt
  show (1024 * I + a.val) % 8192 = _
  exact Nat.mod_eq_of_lt (by omega)

/-- A sum over the 8192 samples is the sum over the 8 tiles of the sums over each tile's 1024 samples. -/
theorem sum_tiles {β : Type*} [AddCommMonoid β] (g : Fin 8192 → β) :
    ∑ k : Fin 8192, g k = ∑ s ∈ Finset.range 8, ∑ a : Fin 1024, g (pidx s a) := by
  rw [Finset.sum_range (fun s => ∑ a : Fin 1024, g (pidx s a)),
    ← Fintype.sum_prod_type' (fun (I : Fin 8) (a : Fin 1024) => g (pidx I.val a))]
  refine (Equiv.sum_comp (finProdFinEquiv : Fin 8 × Fin 1024 ≃ Fin 8192) g).symm.trans ?_
  refine Finset.sum_congr rfl fun x _ => congrArg g (Fin.ext ?_)
  rw [pidx_val x.1.isLt]
  show x.2.val + 1024 * x.1.val = _
  omega

/-! ## One sample's contribution -/

/-- What a sample with time `tp` and score `rp` adds to the risk-set sum of a sample with time `tq`:
    `exp (rp - M)` when `tq ≤ tp`, else zero. -/
def term (tq tp rp M : Ideal .f32) : Ideal .f32 :=
  Scalar.select (FloatOps.cmpf .ole tq tp) (FloatOps.exp (FloatOps.subf rp M)) (FloatOps.ofBits .f32 0x00000000#32)

/-! ## Layout readings at an index -/

variable {α : Type}

/-- A `[1024, 1]` column broadcast to `[1024, 1024]` reads, at `(p, c)`, the column at row `p`. -/
theorem bcast_col (v : (⟨2, ![1024, 1]⟩ : Shape).Idx → α) (h : (⟨2, ![1024, 1]⟩ : Shape).Broadcasts ⟨2, ![1024, 1024]⟩)
    (p c : Fin 1024) : broadcastTo ⟨2, ![1024, 1024]⟩ v h (ix2 p c) = v (ix2 p (0 : Fin 1)) := by
  refine broadcastTo_apply v h (ix2 p c) (ix2 p (0 : Fin 1)) fun ax => ?_
  match ax with
  | ⟨0, _⟩ => show p.val = if (1024 : Nat) = 1 then 0 else p.val; rw [if_neg (by decide)]
  | ⟨1, _⟩ => rfl

/-- A `[1, 1]` point broadcast to a `[1024, 1]` column reads the point at every row. -/
theorem bcast_pt (v : (⟨2, ![1, 1]⟩ : Shape).Idx → α) (h : (⟨2, ![1, 1]⟩ : Shape).Broadcasts ⟨2, ![1024, 1]⟩)
    (p : Fin 1024) : broadcastTo ⟨2, ![1024, 1]⟩ v h (ix2 p (0 : Fin 1)) = v (ix2 (0 : Fin 1) (0 : Fin 1)) := by
  refine broadcastTo_apply v h (ix2 p (0 : Fin 1)) (ix2 (0 : Fin 1) (0 : Fin 1)) fun ax => ?_
  match ax with
  | ⟨0, _⟩ => rfl
  | ⟨1, _⟩ => rfl

/-- Lane `b` of `[1024]` with row `k` put back on axis 0 is `(k, b)`. -/
theorem lift_rows (h : (⟨2, ![1024, 1024]⟩ : Shape).Reduces [0] (⟨1, ![1024]⟩ : Shape)) (b : Fin 1024)
    (k : Fin ((⟨2, ![1024, 1024]⟩ : Shape).size 0)) : h.lift (ix1 b) k = ix2 (⟨k.val, k.isLt⟩ : Fin 1024) b := by
  funext c; apply Fin.ext
  fin_cases c <;> rfl

/-- The sum over the rows of a `[1024, 1024]` tile, read at lane `b`: the plain sum of column `b`. -/
theorem colsum_apply (x : FVec Ideal (⟨2, ![1024, 1024]⟩ : Shape) .f32)
    (h : (⟨2, ![1024, 1024]⟩ : Shape).Reduces [0] (⟨1, ![1024]⟩ : Shape)) (hφ : FKind.Formats .f32)
    (hacc : (0x00000000#32 : BitVec 32) = 0x00000000#32) (b : Fin 1024) :
    multiReduction .add [0] (⟨1, ![1024]⟩ : Shape) x 0x00000000#32 h hφ hacc (ix1 b) = ∑ a : Fin 1024, x (ix2 a b) := by
  refine (Ideal.multiReduction_add_single x 0x00000000#32 h hφ hacc (ix1 b)).trans ?_
  exact Finset.sum_congr rfl fun k _ => congrArg x (lift_rows h b k)

end RiskSet

end
-- ==== Proof.KPayload.lean ====
/-
  One tile's update of the accumulator, read at a lane.

  With `M` the point `v3`, `r` the column `v5` of the tile's scores, `ti` the column `v7` of the tile's times, `tj` the
  row `v9` of the column block's times and `acc` the accumulator, lane `b` of the update is
      acc b + ∑ a, (if tj b ≤ ti a then exp (r a - M) else 0),
  the sum over the tile's 1024 rows: the body broadcasts the row and the columns to the square tile, compares, selects
  and sums over the rows; every cast between equal shapes is the identity.
  Read at the zero accumulator a first tile stores, the first summand is the zero word's value.
-/
import proofs.«142729_j64639257805423_1_alg».proof.Proof.Gen.KernelIdeal.Skeleton
import proofs.«142729_j64639257805423_1_alg».proof.Proof.RiskSpec

noncomputable section

namespace Cert.KernelIdeal.Risk

open Idealize.ShloMosaic Idealize.ShloMosaic.ValueIdx Cert.KernelIdeal Cert.KernelIdeal.Gen RiskSet

/-- Lane `b` of the tile's update. -/
theorem pay2_apply (v3 : FVec Ideal S1x1 .f32) (v5 v7 : FVec Ideal S1024x1 .f32) (v9 v21 : FVec Ideal S1x1024 .f32)
    (b : Fin 1024) :
    k0_pay2 (F := Ideal) v3 v5 v7 v9 v21 (ix2 (0 : Fin 1) b)
      = v21 (ix2 (0 : Fin 1) b)
        + ∑ a : Fin 1024, term (v9 (ix2 (0 : Fin 1) b)) (v7 (ix2 a (0 : Fin 1))) (v5 (ix2 a (0 : Fin 1)))
            (v3 (ix2 (0 : Fin 1) (0 : Fin 1))) := by
  have e14 : ∀ a : Fin 1024, broadcastTo S1024x1024 v9 broadcasts_S1x1024_S1024x1024 (ix2 a b) = v9 (ix2 (0 : Fin 1) b) :=
    fun a => broadcastTo_1b_ab_apply v9 _ a b
  have e15 : ∀ a : Fin 1024, broadcastTo S1024x1024 v7 broadcasts_S1024x1_S1024x1024 (ix2 a b) = v7 (ix2 a (0 : Fin 1)) :=
    fun a => bcast_col v7 _ a b
  have e11 : ∀ a : Fin 1024, broadcastTo S1024x1 v3 broadcasts_S1x1_S1024x1 (ix2 a (0 : Fin 1)) = v3 (ix2 (0 : Fin 1) (0 : Fin 1)) :=
    fun a => bcast_pt v3 _ a
  unfold k0_pay2
  simp only [shapeCast_self]
  refine (addf_apply _ _ _).trans (congrArg (v21 (ix2 (0 : Fin 1) b) + ·) ?_)
  refine (shapeCast_a_1a_apply _ _ (0 : Fin 1) b).trans ?_
  refine (colsum_apply _ _ _ _ b).trans (Finset.sum_congr rfl fun a _ => ?_)
  refine (select_apply _ _ _ _).trans ?_
  rw [cmpf_apply, e14 a, e15 a, bcast_col _ _ a b]
  unfold term
  show Scalar.select _ (FloatOps.exp (FloatOps.subf (v5 (ix2 a (0 : Fin 1))) (broadcastTo S1024x1 v3 _ (ix2 a (0 : Fin 1))))) _ = _
  rw [e11 a]
  rfl

/-- The zeros a first tile stores, read at a lane. -/
theorem pay1_apply (b : Fin 1024) :
    k0_pay1 (F := Ideal) (ix2 (0 : Fin 1) b) = Ideal.ofBits .f32 0x00000000#32 := by
  unfold k0_pay1
  simp only [shapeCast_self]
  rfl

end Cert.KernelIdeal.Risk

end
-- ==== Proof.KBlocks.lean ====
/-
  The arrays the region finds, and each window's block, read at an index.

  Before the region @main reshapes the scores `r` to a column, takes the times (column 0 of `y`) as a column and as a
  row, and the maximum `M` of the scores as a `[1, 1]` point; none of this changes a value, so at an index each of
  these arrays is an entry of `r`, an entry of `y`'s first column, or `M`.
  Point `t` of the 8 × 8 grid has column block `t / 8` and tile `t % 8`. Its blocks are: rows `1024 · (t % 8) + a` of
  the score column and of the time column, lanes `1024 · (t / 8) + b` of the time row, and the point `M`.
-/
import proofs.«142729_j64639257805423_1_alg».proof.Proof.Gen.KernelIdeal.Frame
import proofs.«142729_j64639257805423_1_alg».proof.Proof.RiskSpec
import Idealize.ShloMosaic.Lib.Pipeline.Value
import Idealize.ShloMosaic.Lib.StableHlo.Run
import Idealize.ShloMosaic.Lib.Tactic

noncomputable section

namespace Cert.KernelIdeal.Risk

open Idealize.ShloMosaic Idealize.ShloMosaic.TcCoe Idealize.SL.Sem Idealize.ShloMosaic.ValueIdx
open Cert.KernelIdeal Cert.KernelIdeal.Gen RiskSet
open Idealize.ShloMosaic.StableHlo

variable (m : (ℓ : Loc nD τ sig) → Buf (Elt Ideal) ℓ)

/-! ## The arguments, and the maximum of the scores -/

/-- The scores `r`. -/
abbrev rArr (c : Dev nD) : FVec Ideal S8192 .f32 := m ((c : Thread nD τ).loc main_arg0)
/-- The pairs `y`: column 0 the times, column 1 the event indicators. -/
abbrev yArr (c : Dev nD) : FVec Ideal S8192x2 .f32 := m ((c : Thread nD τ).loc main_arg1)
/-- The maximum of the scores, from `-∞`. -/
def maxS (c : Dev nD) : FVec Ideal S_ .f32 :=
  Host.reduce FloatOps.maximumf (rArr m c) (constant (F := Ideal) S_ .f32 0xFF800000#32) reducesTo_S8192_S_d0 h_S_
/-- The times: column 0 of `y` as a vector. -/
def timesV (c : Dev nD) : FVec Ideal S8192 .f32 :=
  shapeCast S8192 (extractStridedSlice S8192x1 ![0, 0] (yArr m c) slices_S8192x2_S8192x1_0_0) shapeCasts_S8192x1_S8192
/-- The event indicators: column 1 of `y` as a vector. -/
def eventsV (c : Dev nD) : FVec Ideal S8192 .f32 :=
  shapeCast S8192 (extractStridedSlice S8192x1 ![0, 1] (yArr m c) slices_S8192x2_S8192x1_0_1) shapeCasts_S8192x1_S8192

/-- The time of sample `p`. -/
theorem timesV_apply (c : Dev nD) (p : Fin 8192) : timesV m c (ix1 p) = yArr m c (ix2 p (0 : Fin 2)) := by
  unfold timesV
  refine (shapeCast_apply _ _ (ix1 p) (ix2 p (0 : Fin 1)) (by
    rw [Shape.rowMajor_val_two, Shape.rowMajor_val_one]; show p.val * 1 + 0 = p.val; omega)).trans ?_
  exact extractStridedSlice_apply ![0, 0] _ _ (ix2 p (0 : Fin 1)) (ix2 p (0 : Fin 2)) (fun a => match a with
    | ⟨0, _⟩ => by show p.val = 0 + p.val; omega
    | ⟨1, _⟩ => by show (0 : ℕ) = 0 + 0; omega)

/-! ## What the host lines before the region leave -/

theorem v5_eq (c : Dev nD) : (V m c main_v5 : S8192x1.Idx → Ideal .f32)
    = shapeCast S8192x1 (rArr m c) shapeCasts_S8192_S8192x1 := by
  show StableHlo.after hostOps0 (fun b => m (c, b)) (Proc.devRef .tc main_v5) = _
  after_results
  rfl

theorem v6_eq (c : Dev nD) : (V m c main_v6 : S8192x1.Idx → Ideal .f32)
    = shapeCast S8192x1 (timesV m c) shapeCasts_S8192_S8192x1 := by
  show StableHlo.after hostOps0 (fun b => m (c, b)) (Proc.devRef .tc main_v6) = _
  after_results
  rfl

theorem v7_eq (c : Dev nD) : (V m c main_v7 : S1x8192.Idx → Ideal .f32)
    = shapeCast S1x8192 (timesV m c) shapeCasts_S8192_S1x8192 := by
  show StableHlo.after hostOps0 (fun b => m (c, b)) (Proc.devRef .tc main_v7) = _
  after_results
  rfl

theorem v8_eq (c : Dev nD) : (V m c main_v8 : S1x1.Idx → Ideal .f32)
    = shapeCast S1x1 (maxS m c) shapeCasts_S_S1x1 := by
  show StableHlo.after hostOps0 (fun b => m (c, b)) (Proc.devRef .tc main_v8) = _
  after_results
  rfl

theorem v4_eq (c : Dev nD) : (V m c main_v4 : S_.Idx → Ideal .f32) = maxS m c := by
  show StableHlo.after hostOps0 (fun b => m (c, b)) (Proc.devRef .tc main_v4) = _
  after_results
  rfl

theorem v3_eq (c : Dev nD) : (V m c main_v3 : S8192.Idx → Ideal .f32) = eventsV m c := by
  show StableHlo.after hostOps0 (fun b => m (c, b)) (Proc.devRef .tc main_v3) = _
  after_results
  rfl

/-- The score column at row `p` is the score of sample `p`. -/
theorem v5_apply (c : Dev nD) (p : Fin 8192) : V m c main_v5 (ix2 p (0 : Fin 1)) = rArr m c (ix1 p) := by
  rw [v5_eq]
  exact shapeCast_apply _ _ (ix2 p (0 : Fin 1)) (ix1 p) (by
    rw [Shape.rowMajor_val_two, Shape.rowMajor_val_one]; show p.val = p.val * 1 + 0; omega)

/-- The time column at row `p` is the time of sample `p`. -/
theorem v6_apply (c : Dev nD) (p : Fin 8192) : V m c main_v6 (ix2 p (0 : Fin 1)) = yArr m c (ix2 p (0 : Fin 2)) := by
  rw [v6_eq]
  refine (shapeCast_apply _ _ (ix2 p (0 : Fin 1)) (ix1 p) (by
    rw [Shape.rowMajor_val_two, Shape.rowMajor_val_one]; show p.val = p.val * 1 + 0; omega)).trans ?_
  exact timesV_apply m c p

/-- The time row at lane `p` is the time of sample `p`. -/
theorem v7_apply (c : Dev nD) (p : Fin 8192) : V m c main_v7 (ix2 (0 : Fin 1) p) = yArr m c (ix2 p (0 : Fin 2)) := by
  rw [v7_eq]
  refine (shapeCast_a_1a_apply _ _ (0 : Fin 1) p).trans ?_
  exact timesV_apply m c p

/-- The `[1, 1]` point is the maximum. -/
theorem v8_apply (c : Dev nD) : V m c main_v8 (ix2 (0 : Fin 1) (0 : Fin 1)) = maxS m c ix0 := by
  rw [v8_eq]
  exact shapeCast_apply _ _ (ix2 (0 : Fin 1) (0 : Fin 1)) ix0 (by
    rw [Shape.rowMajor_val_two]; rfl)

/-! ## The windows' index maps over the grid -/

theorem idx0 : ∀ t : Fin cfg0.N, win0_0.index t (0 : Fin 2) = t.val % 8 ∧ win0_0.index t (1 : Fin 2) = 0 :=
  (by decide +kernel : ∀ t : Fin grid0.N, win0_0.index t (0 : Fin 2) = t.val % 8 ∧ win0_0.index t (1 : Fin 2) = 0)
theorem idx1 : ∀ t : Fin cfg0.N, win0_1.index t (0 : Fin 2) = t.val % 8 ∧ win0_1.index t (1 : Fin 2) = 0 :=
  (by decide +kernel : ∀ t : Fin grid0.N, win0_1.index t (0 : Fin 2) = t.val % 8 ∧ win0_1.index t (1 : Fin 2) = 0)
theorem idx2 : ∀ t : Fin cfg0.N, win0_2.index t (0 : Fin 2) = 0 ∧ win0_2.index t (1 : Fin 2) = t.val / 8 :=
  (by decide +kernel : ∀ t : Fin grid0.N, win0_2.index t (0 : Fin 2) = 0 ∧ win0_2.index t (1 : Fin 2) = t.val / 8)
theorem idx3 : ∀ t : Fin cfg0.N, win0_3.index t (0 : Fin 2) = 0 ∧ win0_3.index t (1 : Fin 2) = 0 :=
  (by decide +kernel : ∀ t : Fin grid0.N, win0_3.index t (0 : Fin 2) = 0 ∧ win0_3.index t (1 : Fin 2) = 0)
theorem idx4 : ∀ t : Fin cfg0.N, win0_4.index t (0 : Fin 2) = 0 ∧ win0_4.index t (1 : Fin 2) = t.val / 8 :=
  (by decide +kernel : ∀ t : Fin grid0.N, win0_4.index t (0 : Fin 2) = 0 ∧ win0_4.index t (1 : Fin 2) = t.val / 8)

/-! ## The input blocks at a point -/

/-- The tile's scores, the tile's times, the column block's times, and the maximum, as the body finds them. -/
abbrev rblk (c : Dev nD) (t : Fin cfg0.N) : Vec Ideal S1024x1 .f32 := iblk m c 0 t
abbrev tiblk (c : Dev nD) (t : Fin cfg0.N) : Vec Ideal S1024x1 .f32 := iblk m c 1 t
abbrev tjblk (c : Dev nD) (t : Fin cfg0.N) : Vec Ideal S1x1024 .f32 := iblk m c 2 t
abbrev mblk (c : Dev nD) (t : Fin cfg0.N) : Vec Ideal S1x1 .f32 := iblk m c 3 t

theorem div8_lt (t : Fin cfg0.N) : t.val / 8 < 8 := by
  have hN : t.val < 64 := lt_of_lt_of_eq t.isLt (show cfg0.N = 64 from N_0)
  omega

/-- Row `a` of the tile's scores is the score of sample `a` of tile `t % 8`. -/
theorem rblk_apply (c : Dev nD) (t : Fin cfg0.N) (a : Fin 1024) :
    rblk m c t (ix2 a (0 : Fin 1)) = rArr m c (ix1 (pidx (t.val % 8) a)) := by
  refine Eq.trans ?_ (v5_apply m c _)
  unfold rblk iblk
  rw [View.read_apply]
  show V m c main_v5 (((cfg0.win 0).blk t).view.emb (ix2 a (0 : Fin 1))) = _
  refine congrArg (V m c main_v5) (funext fun d => Fin.ext ?_)
  match d with
  | ⟨0, _⟩ =>
    show win0_0.index t 0 * 1024 + 1 * a.val = (pidx (t.val % 8) a).val
    rw [(idx0 t).1, pidx_val (by omega)]; omega
  | ⟨1, _⟩ =>
    show win0_0.index t 1 * 1 + 1 * 0 = 0
    rw [(idx0 t).2]

/-- Row `a` of the tile's times is the time of sample `a` of tile `t % 8`. -/
theorem tiblk_apply (c : Dev nD) (t : Fin cfg0.N) (a : Fin 1024) :
    tiblk m c t (ix2 a (0 : Fin 1)) = yArr m c (ix2 (pidx (t.val % 8) a) (0 : Fin 2)) := by
  refine Eq.trans ?_ (v6_apply m c _)
  unfold tiblk iblk
  rw [View.read_apply]
  show V m c main_v6 (((cfg0.win 1).blk t).view.emb (ix2 a (0 : Fin 1))) = _
  refine congrArg (V m c main_v6) (funext fun d => Fin.ext ?_)
  match d with
  | ⟨0, _⟩ =>
    show win0_1.index t 0 * 1024 + 1 * a.val = (pidx (t.val % 8) a).val
    rw [(idx1 t).1, pidx_val (by omega)]; omega
  | ⟨1, _⟩ =>
    show win0_1.index t 1 * 1 + 1 * 0 = 0
    rw [(idx1 t).2]

/-- Lane `b` of the column block's times is the time of sample `b` of block `t / 8`. -/
theorem tjblk_apply (c : Dev nD) (t : Fin cfg0.N) (b : Fin 1024) :
    tjblk m c t (ix2 (0 : Fin 1) b) = yArr m c (ix2 (pidx (t.val / 8) b) (0 : Fin 2)) := by
  refine Eq.trans ?_ (v7_apply m c _)
  unfold tjblk iblk
  rw [View.read_apply]
  show V m c main_v7 (((cfg0.win 2).blk t).view.emb (ix2 (0 : Fin 1) b)) = _
  refine congrArg (V m c main_v7) (funext fun d => Fin.ext ?_)
  match d with
  | ⟨0, _⟩ =>
    show win0_2.index t 0 * 1 + 1 * 0 = 0
    rw [(idx2 t).1]
  | ⟨1, _⟩ =>
    show win0_2.index t 1 * 1024 + 1 * b.val = (pidx (t.val / 8) b).val
    rw [(idx2 t).2, pidx_val (div8_lt t)]; omega

/-- The point is the maximum of the scores. -/
theorem mblk_apply (c : Dev nD) (t : Fin cfg0.N) :
    mblk m c t (ix2 (0 : Fin 1) (0 : Fin 1)) = maxS m c ix0 := by
  refine Eq.trans ?_ (v8_apply m c)
  unfold mblk iblk
  rw [View.read_apply]
  show V m c main_v8 (((cfg0.win 3).blk t).view.emb (ix2 (0 : Fin 1) (0 : Fin 1))) = _
  refine congrArg (V m c main_v8) (funext fun d => Fin.ext ?_)
  match d with
  | ⟨0, _⟩ =>
    show win0_3.index t 0 * 1 + 1 * 0 = 0
    rw [(idx3 t).1]
  | ⟨1, _⟩ =>
    show win0_3.index t 1 * 1 + 1 * 0 = 0
    rw [(idx3 t).2]

end Cert.KernelIdeal.Risk

end
-- ==== Proof.KAcc.lean ====
/-
  The accumulator over a column block's eight tiles, and the array the region writes.

  Write `tile q s` for the part of sample `q`'s risk-set sum that tile `s` contributes: the sum over the tile's 1024
  samples `p` of `exp (r p - M)` where `t q ≤ t p`. At point `t` (column block `t / 8`, tile `t % 8`) lane `b` of the
  update adds `tile q (t % 8)` for `q` = sample `b` of block `t / 8` to what the accumulator held; a first tile starts
  from the zeros it stores. So after point `t` lane `b` of the accumulator is `0 + ∑ s ≤ t % 8, tile q s`: by induction
  on the point, each step one more term of a `Finset.range` sum. The output block holds the same values as the
  accumulator after every point, and is written back after the block's last tile, when the sum runs over all eight
  tiles; the eight column blocks tile the `[1, 8192]` result row.
-/
import proofs.«142729_j64639257805423_1_alg».proof.Proof.KPieces
import proofs.«142729_j64639257805423_1_alg».proof.Proof.KPayload
import proofs.«142729_j64639257805423_1_alg».proof.Proof.KBlocks

noncomputable section

namespace Cert.KernelIdeal.Risk

open Idealize.ShloMosaic Idealize.ShloMosaic.TcCoe Idealize.SL.Sem Idealize.ShloMosaic.ValueIdx
open Cert.KernelIdeal Cert.KernelIdeal.Gen RiskSet
open Idealize.ShloMosaic.Pipeline (Dat)

variable (m : (ℓ : Loc nD τ sig) → Buf (Elt Ideal) ℓ)

/-- The value of the zero word. -/
abbrev zeroW : Ideal .f32 := Ideal.ofBits .f32 0x00000000#32

/-- Tile `s`'s part of sample `q`'s risk-set sum. -/
def tile (c : Dev nD) (q : Fin 8192) (s : ℕ) : Ideal .f32 :=
  ∑ a : Fin 1024, term (yArr m c (ix2 q (0 : Fin 2))) (yArr m c (ix2 (pidx s a) (0 : Fin 2))) (rArr m c (ix1 (pidx s a)))
    (maxS m c ix0)

/-- Lane `b` of point `t`'s update of an accumulator `acc`: one more tile's part. -/
theorem upd_apply (c : Dev nD) (t : Fin cfg0.N) (acc : FVec Ideal S1x1024 .f32) (b : Fin 1024) :
    k0_pay2 (F := Ideal) (mblk m c t) (rblk m c t) (tiblk m c t) (tjblk m c t) acc (ix2 (0 : Fin 1) b)
      = acc (ix2 (0 : Fin 1) b) + tile m c (pidx (t.val / 8) b) (t.val % 8) := by
  rw [pay2_apply]
  unfold tile
  refine congrArg (acc (ix2 (0 : Fin 1) b) + ·) (Finset.sum_congr rfl fun a _ => ?_)
  rw [rblk_apply, tiblk_apply, tjblk_apply, mblk_apply]

/-- At a first tile the accumulator ends at the zeros plus the tile's part. -/
theorem scratch_A (c : Dev nD) (t : Fin cfg0.N) (h0 : t.val % 8 = 0) (b : Fin 1024) :
    (outsAt0 m c t.val t.isLt).2 (ix2 (0 : Fin 1) b) = zeroW + tile m c (pidx (t.val / 8) b) (t.val % 8) := by
  rw [outsAt0_A m c t h0]; dsimp only
  refine (congrFun (sout_A (F := Ideal) c (grid0.coords t) (ms0_0 t) (hs0_0 t) (ms0_1 t) (hs0_1 t) (ms0_2 t) (hs0_2 t) (ms0_3 t) (hs0_3 t) (ms0_4 t) (hs0_4 t) scM0_0 (Memref.isWhole_whole _) ((hcond0_0 t).mpr h0)
    (rblk m c t) (tiblk m c t) (tjblk m c t) (mblk m c t)) (ix2 (0 : Fin 1) b)).trans ?_
  refine (upd_apply m c t (k0_pay1 (F := Ideal)) b).trans ?_
  rw [pay1_apply]

/-- At a later tile it ends at what the point before left plus the tile's part. -/
theorem scratch_B (c : Dev nD) (t : Fin cfg0.N) (h0 : ¬t.val % 8 = 0) (b : Fin 1024) :
    (outsAt0 m c t.val t.isLt).2 (ix2 (0 : Fin 1) b)
      = (outsAt0 m c (t.val - 1) (Nat.lt_of_le_of_lt (Nat.sub_le _ _) t.isLt)).2 (ix2 (0 : Fin 1) b)
        + tile m c (pidx (t.val / 8) b) (t.val % 8) := by
  rw [outsAt0_B m c t h0]; dsimp only
  refine (congrFun (sout_B (F := Ideal) c (grid0.coords t) (ms0_0 t) (hs0_0 t) (ms0_1 t) (hs0_1 t) (ms0_2 t) (hs0_2 t) (ms0_3 t) (hs0_3 t) (ms0_4 t) (hs0_4 t) scM0_0 (Memref.isWhole_whole _) (fun h => h0 ((hcond0_0 t).mp h))
    (rblk m c t) (tiblk m c t) (tjblk m c t) (mblk m c t)
    (outsAt0 m c (t.val - 1) (Nat.lt_of_le_of_lt (Nat.sub_le _ _) t.isLt)).2) (ix2 (0 : Fin 1) b)).trans ?_
  exact upd_apply m c t _ b

/-- After every point the output block holds what the accumulator holds. -/
theorem out_eq_scratch (c : Dev nD) (t : Fin cfg0.N) :
    (outsAt0 m c t.val t.isLt).1 = (outsAt0 m c t.val t.isLt).2 := by
  by_cases h0 : t.val % 8 = 0
  · rw [outsAt0_A m c t h0]; dsimp only
    exact (out_A (F := Ideal) c (grid0.coords t) (ms0_0 t) (hs0_0 t) (ms0_1 t) (hs0_1 t) (ms0_2 t) (hs0_2 t) (ms0_3 t) (hs0_3 t) (ms0_4 t) (hs0_4 t) scM0_0 (Memref.isWhole_whole _) ((hcond0_0 t).mpr h0)
      (rblk m c t) (tiblk m c t) (tjblk m c t) (mblk m c t)).trans
      (sout_A (F := Ideal) c (grid0.coords t) (ms0_0 t) (hs0_0 t) (ms0_1 t) (hs0_1 t) (ms0_2 t) (hs0_2 t) (ms0_3 t) (hs0_3 t) (ms0_4 t) (hs0_4 t) scM0_0 (Memref.isWhole_whole _) ((hcond0_0 t).mpr h0)
      (rblk m c t) (tiblk m c t) (tjblk m c t) (mblk m c t)).symm
  · rw [outsAt0_B m c t h0]; dsimp only
    exact (out_B (F := Ideal) c (grid0.coords t) (ms0_0 t) (hs0_0 t) (ms0_1 t) (hs0_1 t) (ms0_2 t) (hs0_2 t) (ms0_3 t) (hs0_3 t) (ms0_4 t) (hs0_4 t) scM0_0 (Memref.isWhole_whole _) (fun h => h0 ((hcond0_0 t).mp h))
      (rblk m c t) (tiblk m c t) (tjblk m c t) (mblk m c t)
      (outsAt0 m c (t.val - 1) (Nat.lt_of_le_of_lt (Nat.sub_le _ _) t.isLt)).2).trans
      (sout_B (F := Ideal) c (grid0.coords t) (ms0_0 t) (hs0_0 t) (ms0_1 t) (hs0_1 t) (ms0_2 t) (hs0_2 t) (ms0_3 t) (hs0_3 t) (ms0_4 t) (hs0_4 t) scM0_0 (Memref.isWhole_whole _) (fun h => h0 ((hcond0_0 t).mp h))
      (rblk m c t) (tiblk m c t) (tjblk m c t) (mblk m c t)
      (outsAt0 m c (t.val - 1) (Nat.lt_of_le_of_lt (Nat.sub_le _ _) t.isLt)).2).symm

/-- THE ACCUMULATOR after point `n`: the zeros plus the parts of tiles `0 … n % 8` of column block `n / 8`. -/
theorem scratch_inv (c : Dev nD) : ∀ (n : ℕ) (h : n < cfg0.N) (b : Fin 1024),
    (outsAt0 m c n h).2 (ix2 (0 : Fin 1) b)
      = zeroW + ∑ s ∈ Finset.range (n % 8 + 1), tile m c (pidx (n / 8) b) s
  | 0, h, b => by
    refine (scratch_A m c ⟨0, h⟩ rfl b).trans ?_
    show zeroW + tile m c (pidx (0 / 8) b) (0 % 8) = zeroW + ∑ s ∈ Finset.range (0 % 8 + 1), tile m c (pidx (0 / 8) b) s
    rw [Nat.zero_mod, Nat.zero_add, Finset.sum_range_one]
  | n + 1, h, b => by
    by_cases h0 : (n + 1) % 8 = 0
    · refine (scratch_A m c ⟨n + 1, h⟩ h0 b).trans ?_
      show zeroW + tile m c (pidx ((n + 1) / 8) b) ((n + 1) % 8)
        = zeroW + ∑ s ∈ Finset.range ((n + 1) % 8 + 1), tile m c (pidx ((n + 1) / 8) b) s
      rw [h0, Nat.zero_add, Finset.sum_range_one]
    · refine (scratch_B m c ⟨n + 1, h⟩ h0 b).trans ?_
      show (outsAt0 m c n (Nat.lt_of_succ_lt h)).2 (ix2 (0 : Fin 1) b) + tile m c (pidx ((n + 1) / 8) b) ((n + 1) % 8)
        = zeroW + ∑ s ∈ Finset.range ((n + 1) % 8 + 1), tile m c (pidx ((n + 1) / 8) b) s
      rw [scratch_inv c n (Nat.lt_of_succ_lt h) b]
      have e1 : (n + 1) / 8 = n / 8 := by omega
      have e2 : (n + 1) % 8 = n % 8 + 1 := by omega
      rw [e1, e2, Finset.sum_range_succ _ (n % 8 + 1), add_assoc]

/-! ## The result row -/

/-- Sample `q`'s risk-set sum as the region computes it: the zeros plus the eight tiles' parts. -/
def colSum (c : Dev nD) (q : Fin 8192) : Ideal .f32 := zeroW + ∑ s ∈ Finset.range 8, tile m c q s

/-- The `[1, 8192]` row of them. -/
def outArr (c : Dev nD) : FVec Ideal S1x8192 .f32 := fun j => colSum m c ⟨(j 1).val, idx2_lt1 j⟩

theorem outArr_apply (c : Dev nD) (q : Fin 8192) : outArr m c (ix2 (0 : Fin 1) q) = colSum m c q := rfl

/-- WHAT A WRITE-BACK WRITES: after a block's last tile the output block is the block of the result row. -/
theorem flushed_eq (c : Dev nD) (t : Fin cfg0.N) (hf : (cfg0.win 4).flush t = true) :
    (dats m 0 c).flushed 4 t = ((cfg0.win 4).blk t).view.read (Elt Ideal) (outArr m c) := by
  have h7 : t.val % 8 = 7 := (flush0_4 t).mp hf
  show (cfg0.win 4).cut (grid0.coords t) ((dats m 0 c).after 4 t) = _
  rw [after0_4, out_eq_scratch]
  funext j
  obtain ⟨u, b, rfl⟩ : ∃ (u : Fin 1) (b : Fin 1024), j = ix2 u b := ⟨j 0, j 1, eq_ix2 j⟩
  obtain rfl : u = 0 := Subsingleton.elim _ _
  show (outsAt0 m c t.val t.isLt).2 (ix2 (0 : Fin 1) b) = outArr m c (((cfg0.win 4).blk t).view.emb (ix2 (0 : Fin 1) b))
  rw [scratch_inv m c t.val t.isLt b, h7]
  have e : ((cfg0.win 4).blk t).view.emb (ix2 (0 : Fin 1) b) = ix2 (0 : Fin 1) (pidx (t.val / 8) b) := by
    funext d; apply Fin.ext
    match d with
    | ⟨0, _⟩ =>
      show win0_4.index t 0 * 1 + 1 * 0 = 0
      rw [(idx4 t).1]
    | ⟨1, _⟩ =>
      show win0_4.index t 1 * 1024 + 1 * b.val = (pidx (t.val / 8) b).val
      rw [(idx4 t).2, pidx_val (div8_lt t)]; omega
  rw [e, outArr_apply]
  rfl

end Cert.KernelIdeal.Risk

end
-- ==== Proof.Loss.lean ====
/-
  From the risk-set sums to the loss: the part both programs share.

  With `S` the risk-set sums, `M` the maximum of the scores, `r` the scores and `e` the event indicators,
      loss = (-(∑ q, (r q - (log (S q + ε) + M)) · e q) / ∑ q, e q) / 8192,
  `ε` the float `9.99999993e-9`. Both programs apply these same operations, in this order, with the same literal
  words, so the certificate carries them as ONE function and only ever compares its arguments.
-/
import Idealize.ShloMosaic.PureOps.Ideal
import Idealize.ShloMosaic.Lib.ValueIdx

noncomputable section

namespace RiskSet

open Idealize.ShloMosaic

/-- A vector over the samples, and a scalar. -/
abbrev Smp : Shape := ⟨1, ![8192]⟩
abbrev Scl : Shape := ⟨0, ![]⟩

theorem bcastScl : Scl.BroadcastsInDim Smp (![] : Fin 0 → Fin Smp.rank) := by decide
theorem redSmp : Smp.ReducesTo [0] Scl := by decide
theorem sclPos : 0 < Scl.numel := by decide

/-- The loss from the risk-set sums `S`, the maximum `M`, the scores `r` and the event indicators `e`. -/
def lossOf (S : FVec Ideal Smp .f32) (M : FVec Ideal Scl .f32) (r e : FVec Ideal Smp .f32) : FVec Ideal Scl .f32 :=
  Host.divf (F := Ideal)
    (Host.divf (F := Ideal)
      (Host.negf (F := Ideal)
        (Host.reduceAdd (F := Ideal)
          (mulf
            (subf r
              (addf
                (Host.log (F := Ideal)
                  (addf S (broadcastInDim Smp ![] bcastScl (constant (F := Ideal) Scl .f32 0x322BCC77#32))))
                (broadcastInDim Smp ![] bcastScl M)))
            e)
          (constant (F := Ideal) Scl .f32 0x00000000#32) redSmp sclPos))
      (Host.reduceAdd (F := Ideal) e (constant (F := Ideal) Scl .f32 0x00000000#32) redSmp sclPos))
    (constant (F := Ideal) Scl .f32 0x46000000#32)

end RiskSet

end
-- ==== Proof.KRun.lean ====
/-
  The kernel program's run, read: its result is the loss of the risk-set sums the region wrote.

  The eight column blocks, each written back after its last tile, tile the `[1, 8192]` result row, so the array the
  region writes is the whole row of risk-set sums. The host lines after the region reshape it to a vector and apply
  the shared loss to it, to the maximum and to the event indicators computed before the region, and to the scores.
-/
import proofs.«142729_j64639257805423_1_alg».proof.Proof.KAcc
import proofs.«142729_j64639257805423_1_alg».proof.Proof.Loss

noncomputable section

namespace Cert.KernelIdeal.Risk

open Idealize.ShloMosaic Idealize.ShloMosaic.TcCoe Idealize.SL.Sem Idealize.ShloMosaic.ValueIdx
open Cert.KernelIdeal Cert.KernelIdeal.Gen RiskSet
open Idealize.ShloMosaic.StableHlo
open Idealize.ShloMosaic.Pipeline (Dat)

variable (m : (ℓ : Loc nD τ sig) → Buf (Elt Ideal) ℓ) (ρ : Dev nD → PrngReg)

/-! ## The array the region writes -/

/-- An index of the result row is in point `t`'s block iff each coordinate is in the block's range on its axis. -/
theorem mem_blk4 (t : Fin cfg0.N) (i : S1x8192.Idx) :
    i ∈ ((cfg0.win 4).blk t).view.set ↔ ∀ a : Fin 2, win0_4.index t a * S1x1024.size a ≤ (i a).val
      ∧ (i a).val < win0_4.index t a * S1x1024.size a + S1x1024.size a := by
  show i ∈ ((View.whole main_v9).slice (win0_4.rect t)).set ↔ _
  rw [View.set_slice_whole, Rect.mem_set_unit]
  exact Iff.rfl

/-- The row of risk-set sums: lane `q` lies in column block `q / 1024`, written back after point `8 · (q / 1024) + 7`. -/
theorem final4 (c : Dev nD) : (dats m 0 c).arrAt 4 cfg0.N = outArr m c :=
  (dats m 0 c).arrAt_eq_of_cover 4 (outArr m c) (flushed_eq m c) fun i => by
    have hq : (i 1).val < 8192 := idx2_lt1 i
    have hu : (i 0).val < 1 := idx2_lt0 i
    have hN : cfg0.N = 64 := N_0
    obtain ⟨t, ht⟩ : ∃ t : Fin cfg0.N, t.val = 8 * ((i 1).val / 1024) + 7 := ⟨⟨8 * ((i 1).val / 1024) + 7, by rw [hN]; omega⟩, rfl⟩
    refine ⟨t, (flush0_4 t).mpr (by rw [ht]; omega), ?_⟩
    rw [mem_blk4]
    intro a
    match a with
    | ⟨0, _⟩ =>
      show win0_4.index t 0 * 1 ≤ (i 0).val ∧ (i 0).val < win0_4.index t 0 * 1 + 1
      rw [(idx4 t).1]; omega
    | ⟨1, _⟩ =>
      show win0_4.index t 1 * 1024 ≤ (i 1).val ∧ (i 1).val < win0_4.index t 1 * 1024 + 1024
      rw [(idx4 t).2, ht]; omega

/-! ## The host lines after the region -/

/-- The buffers as the lines after the region find them: the region's arrays as the run left them, the others as the
    region found them. -/
abbrev aft (c : Dev nD) : Valuation τ sig (Elt Ideal) :=
  Pipeline.withArrays (cfgs 0).spec c (V0 m c) (fun w => (dats m 0 c).arrAt w (cfgs 0).N)

theorem aft_v9 (c : Dev nD) : (aft m c (Proc.devRef .tc main_v9) : S1x8192.Idx → Ideal .f32) = outArr m c :=
  (Pipeline.withArrays_arr spec0 launch0.win.arr_inj c _ _ 4).trans (final4 m c)

theorem aft_v4 (c : Dev nD) : (aft m c (Proc.devRef .tc main_v4) : S_.Idx → Ideal .f32) = maxS m c :=
  (Pipeline.withArrays_of_ne _ c (V0 m c) _ main_v4 (by exact (by decide : ∀ w, Pipeline.arrRef spec0 w ≠ main_v4))).trans
    (v4_eq m c)

theorem aft_v3 (c : Dev nD) : (aft m c (Proc.devRef .tc main_v3) : S8192.Idx → Ideal .f32) = eventsV m c :=
  (Pipeline.withArrays_of_ne _ c (V0 m c) _ main_v3 (by exact (by decide : ∀ w, Pipeline.arrRef spec0 w ≠ main_v3))).trans
    (v3_eq m c)

theorem aft_arg0 (c : Dev nD) : (aft m c (Proc.devRef .tc main_arg0) : S8192.Idx → Ideal .f32) = rArr m c :=
  (Pipeline.withArrays_of_ne _ c (V0 m c) _ main_arg0 (by exact (by decide : ∀ w, Pipeline.arrRef spec0 w ≠ main_arg0))).trans
    (V_main_arg0 m c)

/-- The lines after the region are the shared loss of what they find. -/
theorem tail_form (c : Dev nD) :
    Pipeline.afterTail₀ cfgs (dats m) 0 (V0 m) [hostOps1] c main_v22
      = lossOf (shapeCast S8192 (aft m c (Proc.devRef .tc main_v9)) shapeCasts_S1x8192_S8192)
          (aft m c (Proc.devRef .tc main_v4)) (aft m c (Proc.devRef .tc main_arg0)) (aft m c (Proc.devRef .tc main_v3)) := by
  unfold Pipeline.afterTail₀
  show StableHlo.after hostOps1 _ (Proc.devRef .tc main_v22) = _
  after_results
  rfl

/-- The risk-set sums as a vector over the samples. -/
def sumsV (c : Dev nD) : FVec Ideal S8192 .f32 := shapeCast S8192 (outArr m c) shapeCasts_S1x8192_S8192

/-- THE RESULT: the shared loss of the risk-set sums, the maximum, the scores and the event indicators. -/
theorem result_eq (c : Dev nD) :
    Pipeline.afterTail₀ cfgs (dats m) 0 (V0 m) [hostOps1] c main_v22
      = lossOf (sumsV m c) (maxS m c) (rArr m c) (eventsV m c) := by
  rw [tail_form, aft_v9, aft_v4, aft_v3, aft_arg0]
  rfl

/-- The run, read: the result at that loss, the arguments unchanged. -/
theorem run : θ_run defs (onTc (τ := τ) (main (F := Ideal))) ⟨m, fun _ => 0, ρ⟩ fun r => ∀ c : Dev nD,
      r.2.mem ((c : Thread nD τ).loc main_v22) = lossOf (sumsV m c) (maxS m c) (rArr m c) (eventsV m c)
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun _ h c =>
    ⟨((h c).2 main_v22 (Pipeline.mem_restRefs_of main_v22 (by decide) (by decide))).trans (result_eq m c),
     ((h c).2 main_arg0 (Pipeline.mem_restRefs_of main_arg0 (by decide) (by decide))).trans (W_main_arg0 m (dats m) c),
     ((h c).2 main_arg1 (Pipeline.mem_restRefs_of main_arg1 (by decide) (by decide))).trans (W_main_arg1 m (dats m) c)⟩)
    (run_main m ρ)

end Cert.KernelIdeal.Risk

end
-- ==== Proof.RefRead.lean ====
/-
  The reference, read: its risk-set sums as plain sums over the samples, and its result as the shared loss of them.

  The reference broadcasts the times to an `8192 × 8192` square both ways, compares, selects `exp (r p - M)` or zero
  and sums over the rows: at sample `q` that is `0 + ∑ p, (if t q ≤ t p then exp (r p - M) else 0)`, every layout
  operation on the way read at an index. What follows the sums is the shared loss.
-/
import proofs.«142729_j64639257805423_1_alg».proof.Defs
import proofs.«142729_j64639257805423_1_alg».proof.Proof.Gen.ReferenceIdeal.Run
import proofs.«142729_j64639257805423_1_alg».proof.Proof.Gen.ReferenceIdeal.Read
import proofs.«142729_j64639257805423_1_alg».proof.Proof.RiskSpec
import proofs.«142729_j64639257805423_1_alg».proof.Proof.Loss

noncomputable section

namespace Cert.ReferenceIdeal.RefValue

open Idealize.ShloMosaic Idealize.ShloMosaic.TcCoe Idealize.SL.Sem Idealize.ShloMosaic.ValueIdx
open Cert.ReferenceIdeal Cert.ReferenceIdeal.Gen Cert.ReferenceIdeal.Read RiskSet

/-- Sample `q`'s risk-set sum in the reference: the zero it starts from plus every sample's contribution. -/
theorem sums_apply (x0 : FVec Ideal S8192 .f32) (x1 : FVec Ideal S8192x2 .f32) (q : Fin 8192) :
    val_main_v15 (F := Ideal) x0 x1 (ix1 q)
      = Ideal.ofBits .f32 0x00000000#32
        + ∑ k : Fin 8192, term (x1 (ix2 q (0 : Fin 2))) (x1 (ix2 k (0 : Fin 2))) (x0 (ix1 k))
            (val_main_v9 (F := Ideal) x0 ix0) := by
  have eq : ∀ k : Fin 8192,
      idx_main_v0 (idx_main_v1 (idx_main_v4 (idx_main_v6 (idx_main_v15 (ix1 q) k)))) = ix2 q (0 : Fin 2) :=
    fun k => funext fun a => Fin.ext (by match a with | ⟨0, _⟩ => exact Nat.div_one _ | ⟨1, _⟩ => rfl)
  have ek : ∀ k : Fin 8192,
      idx_main_v0 (idx_main_v1 (idx_main_v5 (idx_main_v7 (idx_main_v15 (ix1 q) k)))) = ix2 k (0 : Fin 2) :=
    fun k => funext fun a => Fin.ext (by match a with | ⟨0, _⟩ => exact Nat.div_one _ | ⟨1, _⟩ => rfl)
  have er : ∀ k : Fin 8192, idx_main_v13 (idx_main_call0_v0 (idx_main_v15 (ix1 q) k)) = ix1 k :=
    fun k => funext fun a => Fin.ext (by match a with | ⟨0, _⟩ => rfl)
  rw [val_main_v15_apply]
  refine congrArg₂ (· + ·) rfl (Finset.sum_congr rfl fun k _ => ?_)
  rw [val_main_v14_apply, val_main_v8_apply, val_main_v6_apply, val_main_v4_apply, val_main_v1_apply, val_main_v0_apply,
    val_main_v7_apply, val_main_v5_apply, val_main_v1_apply, val_main_v0_apply,
    val_main_call0_v0_apply, val_main_v13_apply, val_main_v12_apply, val_main_v11_apply, val_main_v10_apply,
    val_main_call0_v1_apply, val_main_cst_0_apply, eq k, ek k, er k]
  rfl

/-- The reference's result is the shared loss of its risk-set sums, its maximum, the scores and the event indicators. -/
theorem loss_eq (x0 : FVec Ideal S8192 .f32) (x1 : FVec Ideal S8192x2 .f32) :
    val_main_v27 (F := Ideal) x0 x1
      = lossOf (val_main_v15 (F := Ideal) x0 x1) (val_main_v9 (F := Ideal) x0) x0 (val_main_v3 (F := Ideal) x1) := rfl

/-- The reference's run, read. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v27)
        = lossOf (val_main_v15 (F := Ideal) (m ((c.tc : Thread nD τ).loc main_arg0)) (m ((c.tc : Thread nD τ).loc main_arg1)))
            (val_main_v9 (F := Ideal) (m ((c.tc : Thread nD τ).loc main_arg0))) (m ((c.tc : Thread nD τ).loc main_arg0))
            (val_main_v3 (F := Ideal) (m ((c.tc : Thread nD τ).loc main_arg1)))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c => ⟨(h c).1.trans ((val_main_v27_eq _ _).trans (loss_eq _ _)), (h c).2⟩)
    (Cert.ReferenceIdeal.Value.run (F := Ideal) m ρ)

end Cert.ReferenceIdeal.RefValue

end
-- ==== Proof.lean ====
/-
  The Cox partial-likelihood loss: a tiled kernel against its one-pass reference, over the extended reals.

  Both programs compute, for scores `r`, times `t` and event indicators `e` over 8192 samples, with `M = max r`,
      S q  = ∑ p, (if t q ≤ t p then exp (r p - M) else 0)            (the risk-set sum of sample q)
      loss = (-(∑ q, (r q - (log (S q + ε) + M)) · e q) / ∑ q, e q) / 8192.
  The reference forms the whole `8192 × 8192` comparison and sums its rows in one reduction. The kernel walks an 8 × 8
  grid of `1024 × 1024` tiles: for each block of 1024 columns it zeroes an accumulator at the first tile, adds each
  tile's column sums, and writes the block back after the eighth tile. So the kernel's `S q` is
  `0 + ∑ s < 8, ∑ a < 1024, term q (1024 · s + a)` where the reference's is `0 + ∑ p < 8192, term q p`: one finite sum
  re-indexed, equal in any commutative monoid — no summand need be finite, and the precondition is never opened.
  Everything after `S` is the same operations on both sides, carried as one function.

  The three frames: the two kernel programs' are the generated frame certificates; the reference's is its generated
  run with the result dropped. The ideal pass rewrote nothing, so `preserves` is `True`.
-/
import proofs.«142729_j64639257805423_1_alg».proof.Defs
import proofs.«142729_j64639257805423_1_alg».proof.Proof.Gen.Kernel
import proofs.«142729_j64639257805423_1_alg».proof.Proof.Gen.Kernel.Frame
import proofs.«142729_j64639257805423_1_alg».proof.Proof.Gen.KernelIdeal
import proofs.«142729_j64639257805423_1_alg».proof.Proof.Gen.KernelIdeal.Frame
import proofs.«142729_j64639257805423_1_alg».proof.Proof.Gen.ReferenceIdeal
import proofs.«142729_j64639257805423_1_alg».proof.Proof.Gen.Pre_finite_inputs
import proofs.«142729_j64639257805423_1_alg».proof.Proof.KRun
import proofs.«142729_j64639257805423_1_alg».proof.Proof.RefRead
import Idealize.ShloMosaic.Adequacy
import Idealize.ShloMosaic.Init

noncomputable section

namespace Cert.Proof

open Idealize.ShloMosaic Idealize.ShloMosaic.TcCoe Idealize.SL.Sem Idealize.ShloMosaic.ValueIdx
open RiskSet Cert.KernelIdeal.Risk

section Bridge

variable (m : (ℓ : Loc Cert.KernelIdeal.nD Cert.KernelIdeal.τ Cert.KernelIdeal.sig) → Buf (Elt Ideal) ℓ)

/-- THE TWO RISK-SET SUMS AGREE: the reference's sum over all samples is the kernel's sum over the eight tiles of the
    sums inside each tile, from the same zero. -/
theorem sums_eq (c : Dev Cert.KernelIdeal.nD) :
    Cert.ReferenceIdeal.Read.val_main_v15 (F := Ideal) (rArr m c) (yArr m c) = sumsV m c := by
  funext j
  obtain ⟨q, rfl⟩ : ∃ q : Fin 8192, j = ix1 q := ⟨j 0, eq_ix1 j⟩
  rw [Cert.ReferenceIdeal.RefValue.sums_apply]
  unfold sumsV
  refine Eq.trans ?_ (shapeCast_1a_a_apply _ _ q).symm
  rw [outArr_apply]
  unfold colSum tile
  rw [sum_tiles]
  rfl

/-- Both take the maximum of the scores the same way, -/
theorem max_eq (c : Dev Cert.KernelIdeal.nD) :
    Cert.ReferenceIdeal.Read.val_main_v9 (F := Ideal) (rArr m c) = maxS m c := rfl

/-- and the event indicators. -/
theorem events_eq (c : Dev Cert.KernelIdeal.nD) :
    Cert.ReferenceIdeal.Read.val_main_v3 (F := Ideal) (yArr m c) = eventsV m c := rfl

end Bridge

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- Both programs end at the shared loss of equal risk-set sums, the same maximum, scores and event indicators. -/
theorem algebraic : Cert.algebraic_KernelIdeal_ReferenceIdeal := by
  intro m ρ m' ρ' _ hagree
  refine ⟨fun c => lossOf (sumsV m c) (maxS m c) (rArr m c) (eventsV m c), Cert.KernelIdeal.Risk.run m ρ, ?_⟩
  refine (θ_run Cert.ReferenceIdeal.defs _ _).mono (fun _ h c => ⟨(h c).1.trans ?_, (h c).2⟩)
    (Cert.ReferenceIdeal.RefValue.run m' ρ')
  rw [(hagree c).1, (hagree c).2]
  show lossOf (Cert.ReferenceIdeal.Read.val_main_v15 (F := Ideal) (rArr m c) (yArr m c))
      (Cert.ReferenceIdeal.Read.val_main_v9 (F := Ideal) (rArr m c)) (rArr m c)
      (Cert.ReferenceIdeal.Read.val_main_v3 (F := Ideal) (yArr m c))
    = lossOf (sumsV m c) (maxS m c) (rArr m c) (eventsV m c)
  rw [sums_eq m c, max_eq m c, events_eq m c]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
